-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000x32 : Shape := ⟨2, ![1600000, 32]⟩
abbrev S160x128 : Shape := ⟨2, ![160, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_v28 : IVec S_ 1) (main_v33 : IVec S2x1600000 1) : IVec S_ 1 :=
  let main_c_12 : IVec S_ 1 := constantI S_ 1 1#1
  let main_v34 : IVec S_ 1 := (fun x v => Host.reduce IntOp.andi x v reducesTo_S2x1600000_S_d0_1 h_S_) main_v33 main_c_12
  let main_v35 : IVec S_ 1 := andi main_v28 main_v34
  main_v35

def fn_part1 {F : FTy → Type} [FloatOps F] (main_arg1 : IVec S2x1600000 32) (main_arg5 : FVec F S128x1 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S2x1600000 32 := broadcastInDim S2x1600000 ![] bcast_S_S2x1600000 main_c_10
  let main_v30 : IVec S2x1600000 1 := cmpi .sge main_arg1 main_v29
  let main_c_11 : IVec S_ 32 := constantI S_ 32 50000#32
  let main_v31 : IVec S2x1600000 32 := broadcastInDim S2x1600000 ![] bcast_S_S2x1600000 main_c_11
  let main_v32 : IVec S2x1600000 1 := cmpi .slt main_arg1 main_v31
  let main_v33 : IVec S2x1600000 1 := andi main_v30 main_v32
  fn_part2 (F := F) main_v28 main_v33

def fn {F : FTy → Type} [FloatOps F] (main_arg0 : FVec F S50000x64 .f32) (main_arg1 : IVec S2x1600000 32) (main_arg2 : FVec F S1600000x32 .f32) (main_arg3 : FVec F S160x128 .f32) (main_arg4 : FVec F S128 .f32) (main_arg5 : FVec F S128x1 .f32) (main_arg6 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S50000x64 : Shape := ⟨2, ![50000, 64]⟩
abbrev S2x1600000 : Shape := ⟨2, ![2, 1600000]⟩
abbrev S1600000x32 : Shape := ⟨2, ![1600000, 32]⟩
abbrev S160x128 : Shape := ⟨2, ![160, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1 : Shape := ⟨2, ![1, 1]⟩
abbrev S1600000x64 : Shape := ⟨2, ![1600000, 64]⟩
abbrev S64x128 : Shape := ⟨2, ![64, 128]⟩
abbrev S32x128 : Shape := ⟨2, ![32, 128]⟩
abbrev S1x128 : Shape := ⟨2, ![1, 128]⟩
abbrev S16000x64 : Shape := ⟨2, ![16000, 64]⟩
abbrev S16000x32 : Shape := ⟨2, ![16000, 32]⟩
abbrev S16000x1 : Shape := ⟨2, ![16000, 1]⟩
abbrev S16000x128 : Shape := ⟨2, ![16000, 128]⟩
abbrev S16000 : Shape := ⟨1, ![16000]⟩

abbrev nBuf : Space → Nat
  | .hbm => 65
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000x32, .f32⟩
  | .hbm, ⟨3, _⟩ => ⟨S160x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1, .i32⟩
  | .hbm, ⟨20, _⟩ => ⟨S_, .i32⟩
  | .hbm, ⟨21, _⟩ => ⟨S1600000x1, .i32⟩
  | .hbm, ⟨22, _⟩ => ⟨S1600000x1, .i1⟩
  | .hbm, ⟨23, _⟩ => ⟨S1x1, .i32⟩
  | .hbm, ⟨24, _⟩ => ⟨S1600000x1, .i32⟩
  | .hbm, ⟨25, _⟩ => ⟨S1600000x1, .i1⟩
  | .hbm, ⟨26, _⟩ => ⟨S1600000x1, .i1⟩
  | .hbm, ⟨27, _⟩ => ⟨S_, .i1⟩
  | .hbm, ⟨28, _⟩ => ⟨S1600000, .i1⟩
  | .hbm, ⟨29, _⟩ => ⟨S1600000x64, .f32⟩
  | .hbm, ⟨30, _⟩ => ⟨S1600000x64, .i1⟩
  | .hbm, ⟨31, _⟩ => ⟨S_, .f32⟩
  | .hbm, ⟨32, _⟩ => ⟨S1600000x64, .f32⟩
  | .hbm, ⟨33, _⟩ => ⟨S1600000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1, .i32⟩
  | .hbm, ⟨43, _⟩ => ⟨S_, .i32⟩
  | .hbm, ⟨44, _⟩ => ⟨S1600000x1, .i32⟩
  | .hbm, ⟨45, _⟩ => ⟨S1600000x1, .i1⟩
  | .hbm, ⟨46, _⟩ => ⟨S1x1, .i32⟩
  | .hbm, ⟨47, _⟩ => ⟨S1600000x1, .i32⟩
  | .hbm, ⟨48, _⟩ => ⟨S1600000x1, .i1⟩
  | .hbm, ⟨49, _⟩ => ⟨S1600000x1, .i1⟩
  | .hbm, ⟨50, _⟩ => ⟨S_, .i1⟩
  | .hbm, ⟨51, _⟩ => ⟨S1600000, .i1⟩
  | .hbm, ⟨52, _⟩ => ⟨S1600000x64, .f32⟩
  | .hbm, ⟨53, _⟩ => ⟨S1600000x64, .i1⟩
  | .hbm, ⟨54, _⟩ => ⟨S_, .f32⟩
  | .hbm, ⟨55, _⟩ => ⟨S1600000x64, .f32⟩
  | .hbm, ⟨56, _⟩ => ⟨S1600000x64, .f32⟩
  | .hbm, ⟨57, _⟩ => ⟨S64x128, .f32⟩
  | .hbm, ⟨58, _⟩ => ⟨S64x128, .f32⟩
  | .hbm, ⟨59, _⟩ => ⟨S32x128, .f32⟩
  | .hbm, ⟨60, _⟩ => ⟨S1x128, .f32⟩
  | .hbm, ⟨61, _⟩ => ⟨S1x128, .f32⟩
  | .hbm, ⟨62, _⟩ => ⟨S1x1, .f32⟩
  | .hbm, ⟨63, _⟩ => ⟨S1600000x1, .f32⟩
  | .hbm, ⟨64, _⟩ => ⟨S1600000, .f32⟩
  | .local _ .vmem, ⟨0, _⟩ => ⟨S16000x64, .f32⟩
  | .local _ .vmem, ⟨1, _⟩ => ⟨S16000x64, .f32⟩
  | .local _ .vmem, ⟨2, _⟩ => ⟨S16000x64, .f32⟩
  | .local _ .vmem, ⟨3, _⟩ => ⟨S16000x64, .f32⟩
  | .local _ .vmem, ⟨4, _⟩ => ⟨S16000x32, .f32⟩
  | .local _ .vmem, ⟨5, _⟩ => ⟨S16000x32, .f32⟩
  | .local _ .vmem, ⟨6, _⟩ => ⟨S64x128, .f32⟩
  | .local _ .vmem, ⟨7, _⟩ => ⟨S64x128, .f32⟩
  | .local _ .vmem, ⟨8, _⟩ => ⟨S32x128, .f32⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S16000x1, .f32⟩
  | .local _ .vmem, ⟨13, _⟩ => ⟨S16000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S160x128_S64x128_0_0 : S160x128.Slices ![0, 0] S64x128
  slices_S160x128_S64x128_64_0 : S160x128.Slices ![64, 0] S64x128
  slices_S160x128_S32x128_128_0 : S160x128.Slices ![128, 0] S32x128
  shapeCasts_S128_S1x128 : S128.ShapeCasts S1x128
  shapeCasts_S128x1_S1x128 : S128x1.ShapeCasts S1x128
  shapeCasts_S1_S1x1 : S1.ShapeCasts S1x1
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  bitsLt_bf16_f32 : FTy.bits .bf16 < FTy.bits .f32
  inb_S16000x32_S16000x32_0_0 : ∀ a, (![0, 0] : Fin 2 → Nat) a + S16000x32.size a ≤ S16000x32.size a
  h_S16000x32 : 0 < S16000x32.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  reduces_S16000x128_S16000 : S16000x128.Reduces [1] S16000
  shapeCasts_S16000_S16000x1 : S16000.ShapeCasts S16000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16000x1 : S1x1.Broadcasts S16000x1
  inb_S16000x1_S16000x1_0_0 : ∀ a, (![0, 0] : Fin 2 → Nat) a + S16000x1.size a ≤ S16000x1.size a
  h_S16000x1 : 0 < S16000x1.numel
  shapeCasts_S1600000x1_S1600000 : S1600000x1.ShapeCasts S1600000
  gather_S50000x64_S1600000x1_S1600000x64_1_0_n_n_0_1_164_wf : GatherDims.WF S50000x64 S1600000x1 S1600000x64 [1] [0] [] [0] [] 1 ![1, 64]
  dot_S16000x64_S64x128_S16000x128_1_0_0_1_n_n_wf : DotDims.WF S16000x64 S64x128 S16000x128 [1] [0] [0] [1] [] []
  dot_S16000x32_S32x128_S16000x128_1_0_0_1_n_n_wf : DotDims.WF S16000x32 S32x128 S16000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .f32 = 32 ∨ (Rect.block (s := S1600000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S1600000x64.size a
  hwx0_1 : ∀ i : grid0.Coords, EltTy.bits .f32 = 32 ∨ (Rect.block (s := S1600000x64) S16000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x32.size a ≤ S1600000x32.size a
  hwx0_2 : ∀ i : grid0.Coords, EltTy.bits .f32 = 32 ∨ (Rect.block (s := S1600000x32) S16000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16000x1.size a ≤ S1600000x1.size a
  hwx0_9 : ∀ i : grid0.Coords, EltTy.bits .f32 = 32 ∨ (Rect.block (s := S1600000x1) S16000x1.size (cc0_transform_9 i) (hinb0_9 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def dot_S16000x32_S32x128_S16000x128_1_0_0_1_n_n : DotDims S16000x32 S32x128 S16000x128 where
  lhsContracting := [1]
  rhsContracting := [0]
  lhsNonContracting := [0]
  rhsNonContracting := [1]
  lhsBatch := []
  rhsBatch := []
  wf := dot_S16000x32_S32x128_S16000x128_1_0_0_1_n_n_wf

abbrev win0_0 : Pipeline.Window sig grid0 :=
  Pipeline.Window.ofSpec (Memref.whole main_v4) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S16000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000x32 : Shape := ⟨2, ![1600000, 32]⟩
abbrev S160x128 : Shape := ⟨2, ![160, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S1600000x128 : Shape := ⟨2, ![1600000, 128]⟩
abbrev S1x128 : Shape := ⟨2, ![1, 128]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000x32, .f32⟩
  | .hbm, ⟨3, _⟩ => ⟨S160x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1600000x160, .f32⟩
  | .hbm, ⟨30, _⟩ => ⟨S1600000x128, .f32⟩
  | .hbm, ⟨31, _⟩ => ⟨S1x128, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S1600000x128, .f32⟩
  | .hbm, ⟨36, _⟩ => ⟨S1600000x128, .f32⟩
  | .hbm, ⟨37, _⟩ => ⟨S1600000x1, .f32⟩
  | .hbm, ⟨38, _⟩ => ⟨S1x1, .f32⟩
  | .hbm, ⟨39, _⟩ => ⟨S1600000x1, .f32⟩
  | .hbm, ⟨40, _⟩ => ⟨S1600000x1, .f32⟩
  | .hbm, ⟨41, _⟩ => ⟨S1600000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  gather_S50000x64_S1600000x1_S1600000x64_1_0_n_n_0_1_164_wf : GatherDims.WF S50000x64 S1600000x1 S1600000x64 [1] [0] [] [0] [] 1 ![1, 64]
  dot_S1600000x160_S160x128_S1600000x128_1_0_0_1_n_n_wf : DotDims.WF S1600000x160 S160x128 S1600000x128 [1] [0] [0] [1] [] []
  dot_S1600000x128_S128x1_S1600000x1_1_0_0_1_n_n_wf : DotDims.WF S1600000x128 S128x1 S1600000x1 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf

class Facts : Prop extends Facts₀ where

variable [Facts]
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Spec.lean ====
/-
  The edge score as one function of its arrays over the extended reals.

  For an edge (a row `p`), the hidden unit `j` before the rectifier is the sum of three partial products — the
  source node's 64 features, the destination node's 64 features and the edge's 32 attributes, each against its own
  band of rows of the first weight matrix — plus the bias; the score is the rectified hidden vector against the
  second weight row, plus the second bias. The one law used to join this to a single product over the 160
  concatenated features is that a sum over 160 terms is the sum of its first 64, its next 64 and its last 32:
  associativity and commutativity of addition only, so it holds on the extended reals with no finiteness.
-/
import Idealize.ShloMosaic.PureOps.Ideal.Laws
import Idealize.ShloMosaic.Lib.ValueIdx

noncomputable section

namespace Cert.EdgeScore

open Idealize.ShloMosaic Idealize.ShloMosaic.ValueIdx

/-- An `a × b` array of extended reals. -/
abbrev Mat (a b : Nat) : Type := (⟨2, ![a, b]⟩ : Shape).Idx → EReal

/-- Hidden unit `j` of row `p` before the rectifier: three partial products, grouped as the kernel adds them, plus
    the bias. -/
def hidden {R : Nat} (zs zd : Mat R 64) (ea : Mat R 32) (ws wd : Mat 64 128) (wa : Mat 32 128) (b1 : Mat 1 128)
    (p : Fin R) (j : Fin 128) : EReal :=
  ((∑ k : Fin 64, zs (ix2 p k) * ws (ix2 k j) + ∑ k : Fin 64, zd (ix2 p k) * wd (ix2 k j))
    + ∑ k : Fin 32, ea (ix2 p k) * wa (ix2 k j)) + b1 (ix2 0 j)

/-- The score of row `p`: the rectified hidden vector against the second weight row, plus the second bias. The
    rectifier's zero is kept as the float word both programs carry. -/
def score {R : Nat} (zs zd : Mat R 64) (ea : Mat R 32) (ws wd : Mat 64 128) (wa : Mat 32 128) (b1 w2 : Mat 1 128)
    (b2 : Mat 1 1) (p : Fin R) : EReal :=
  (∑ j : Fin 128, max (hidden zs zd ea ws wd wa b1 p j) (Ideal.ofBits .f32 0x00000000#32) * w2 (ix2 0 j)) + b2 (ix2 0 0)

/-- Rows `o … o + n − 1` of the 160-row first weight matrix, as an `n × 128` array. -/
def band (o : Nat) {n : Nat} (ho : o + n ≤ 160) (W : Mat 160 128) : Mat n 128 :=
  fun i => W (ix2 ⟨o + (i 0).val, by have := idx2_lt0 i; omega⟩ ⟨(i 1).val, idx2_lt1 i⟩)

/-- A vector of 128 as a `1 × 128` row. -/
def rowOfVec (b : (⟨1, ![128]⟩ : Shape).Idx → EReal) : Mat 1 128 := fun i => b (ix1 ⟨(i 1).val, idx2_lt1 i⟩)

/-- A `128 × 1` column as a `1 × 128` row. -/
def rowOfCol (W : Mat 128 1) : Mat 1 128 := fun i => W (ix2 ⟨(i 1).val, idx2_lt1 i⟩ (0 : Fin 1))

/-- A vector of one entry as a `1 × 1` array. -/
def oneOfVec (b : (⟨1, ![1]⟩ : Shape).Idx → EReal) : Mat 1 1 := fun _ => b (ix1 (0 : Fin 1))

/-- A sum over 160 terms is the sum of its first 64, its next 64 and its last 32, in any commutative monoid. -/
theorem sum_fin160_split {M : Type} [AddCommMonoid M] (f : Fin 160 → M) :
    ∑ k : Fin 160, f k
      = (∑ k : Fin 64, f ⟨k.val, by omega⟩ + ∑ k : Fin 64, f ⟨64 + k.val, by omega⟩) + ∑ k : Fin 32, f ⟨128 + k.val, by omega⟩ := by
  calc ∑ k : Fin 160, f k = ∑ k : Fin (64 + 64 + 32), f k := rfl
    _ = ∑ i : Fin (64 + 64), f (Fin.castAdd 32 i) + ∑ i : Fin 32, f (Fin.natAdd (64 + 64) i) := Fin.sum_univ_add _
    _ = (∑ i : Fin 64, f (Fin.castAdd 32 (Fin.castAdd 64 i)) + ∑ i : Fin 64, f (Fin.castAdd 32 (Fin.natAdd 64 i)))
          + ∑ i : Fin 32, f (Fin.natAdd (64 + 64) i) := by
        rw [Fin.sum_univ_add (fun i : Fin (64 + 64) => f (Fin.castAdd 32 i))]
    _ = _ := rfl

end Cert.EdgeScore

end
-- ==== Proof.KernelBody.lean ====
/-
  What the kernel body stores for one edge, read at the extended reals: the score of Spec.lean over the body's nine
  loaded blocks.

  The body casts its operands to bf16 (the identity on exact values), forms three products into zero accumulators
  (each entry a plain sum over the contracted axis), adds them left to right, adds the bias row broadcast over the
  rows, rectifies against zero, multiplies by the second weight row broadcast over the rows, sums each row over its
  128 lanes, turns the vector of row sums into a column and adds the one-entry second bias broadcast down it.
-/
import proofs.«406263_j71914932404373_2_alg».proof.Proof.Gen.KernelIdeal.Skeleton
import proofs.«406263_j71914932404373_2_alg».proof.Proof.LibMatmulAt
import proofs.«406263_j71914932404373_2_alg».proof.Proof.Spec
import Idealize.ShloMosaic.Lib.Pipeline.Value
import Idealize.ShloMosaic.Lib.ValueLayout

noncomputable section

namespace Cert.EdgeScore.Body

open Cert.KernelIdeal Cert.KernelIdeal.Gen Idealize.ShloMosaic Idealize.ShloMosaic.ValueIdx

/-! ## Where the two dimension-number records read their operands -/

theorem lhs64_0 (i : S16000x128.Idx) (q : dot_S16000x64_S64x128_S16000x128_1_0_0_1_n_n.contr.Idx) :
    (dot_S16000x64_S64x128_S16000x128_1_0_0_1_n_n.lhsIdx i q 0).val = (i 0).val := by
  unfold DotDims.lhsIdx
  rw [dif_neg (show ¬(0 : Fin S16000x64.rank) ∈ dot_S16000x64_S64x128_S16000x128_1_0_0_1_n_n.lhsBatch by decide), dif_pos (show (0 : Fin S16000x64.rank) ∈ dot_S16000x64_S64x128_S16000x128_1_0_0_1_n_n.lhsNonContracting by decide)]
  rfl
theorem lhs64_1 (i : S16000x128.Idx) (q : dot_S16000x64_S64x128_S16000x128_1_0_0_1_n_n.contr.Idx) :
    (dot_S16000x64_S64x128_S16000x128_1_0_0_1_n_n.lhsIdx i q 1).val = (q ⟨0, by decide⟩).val :=
  dot_S16000x64_S64x128_S16000x128_1_0_0_1_n_n.lhsIdx_val_of_single rfl i q
theorem rhs64_0 (i : S16000x128.Idx) (q : dot_S16000x64_S64x128_S16000x128_1_0_0_1_n_n.contr.Idx) :
    (dot_S16000x64_S64x128_S16000x128_1_0_0_1_n_n.rhsIdx i q 0).val = (q ⟨0, by decide⟩).val :=
  dot_S16000x64_S64x128_S16000x128_1_0_0_1_n_n.rhsIdx_val_of_single rfl i q
theorem rhs64_1 (i : S16000x128.Idx) (q : dot_S16000x64_S64x128_S16000x128_1_0_0_1_n_n.contr.Idx) :
    (dot_S16000x64_S64x128_S16000x128_1_0_0_1_n_n.rhsIdx i q 1).val = (i 1).val := by
  unfold DotDims.rhsIdx
  rw [dif_neg (show ¬(1 : Fin S64x128.rank) ∈ dot_S16000x64_S64x128_S16000x128_1_0_0_1_n_n.rhsBatch by decide), dif_pos (show (1 : Fin S64x128.rank) ∈ dot_S16000x64_S64x128_S16000x128_1_0_0_1_n_n.rhsNonContracting by decide)]
  rfl

theorem lhs32_0 (i : S16000x128.Idx) (q : dot_S16000x32_S32x128_S16000x128_1_0_0_1_n_n.contr.Idx) :
    (dot_S16000x32_S32x128_S16000x128_1_0_0_1_n_n.lhsIdx i q 0).val = (i 0).val := by
  unfold DotDims.lhsIdx
  rw [dif_neg (show ¬(0 : Fin S16000x32.rank) ∈ dot_S16000x32_S32x128_S16000x128_1_0_0_1_n_n.lhsBatch by decide), dif_pos (show (0 : Fin S16000x32.rank) ∈ dot_S16000x32_S32x128_S16000x128_1_0_0_1_n_n.lhsNonContracting by decide)]
  rfl
theorem lhs32_1 (i : S16000x128.Idx) (q : dot_S16000x32_S32x128_S16000x128_1_0_0_1_n_n.contr.Idx) :
    (dot_S16000x32_S32x128_S16000x128_1_0_0_1_n_n.lhsIdx i q 1).val = (q ⟨0, by decide⟩).val :=
  dot_S16000x32_S32x128_S16000x128_1_0_0_1_n_n.lhsIdx_val_of_single rfl i q
theorem rhs32_0 (i : S16000x128.Idx) (q : dot_S16000x32_S32x128_S16000x128_1_0_0_1_n_n.contr.Idx) :
    (dot_S16000x32_S32x128_S16000x128_1_0_0_1_n_n.rhsIdx i q 0).val = (q ⟨0, by decide⟩).val :=
  dot_S16000x32_S32x128_S16000x128_1_0_0_1_n_n.rhsIdx_val_of_single rfl i q
theorem rhs32_1 (i : S16000x128.Idx) (q : dot_S16000x32_S32x128_S16000x128_1_0_0_1_n_n.contr.Idx) :
    (dot_S16000x32_S32x128_S16000x128_1_0_0_1_n_n.rhsIdx i q 1).val = (i 1).val := by
  unfold DotDims.rhsIdx
  rw [dif_neg (show ¬(1 : Fin S32x128.rank) ∈ dot_S16000x32_S32x128_S16000x128_1_0_0_1_n_n.rhsBatch by decide), dif_pos (show (1 : Fin S32x128.rank) ∈ dot_S16000x32_S32x128_S16000x128_1_0_0_1_n_n.rhsNonContracting by decide)]
  rfl

/-! ## The body's non-pointwise operations, each read at an entry -/

/-- Entry (p, j) of a 16000×64 by 64×128 product into zero: the sum over the 64 contracted features. -/
theorem mm64_at (l : FVec Ideal S16000x64 .bf16) (r : FVec Ideal S64x128 .bf16) (p : Fin 16000) (j : Fin 128) :
    matmul dot_S16000x64_S64x128_S16000x128_1_0_0_1_n_n none l r (constant (F := Ideal) S16000x128 .f32 0x00000000#32) (ix2 p j)
      = ∑ k : Fin 64, l (ix2 p k) * r (ix2 k j) :=
  MatmulAt.matmul_zero_at dot_S16000x64_S64x128_S16000x128_1_0_0_1_n_n rfl rfl lhs64_0 lhs64_1 rhs64_0 rhs64_1 none l r p j

/-- Entry (p, j) of a 16000×32 by 32×128 product into zero: the sum over the 32 contracted attributes. -/
theorem mm32_at (l : FVec Ideal S16000x32 .bf16) (r : FVec Ideal S32x128 .bf16) (p : Fin 16000) (j : Fin 128) :
    matmul dot_S16000x32_S32x128_S16000x128_1_0_0_1_n_n none l r (constant (F := Ideal) S16000x128 .f32 0x00000000#32) (ix2 p j)
      = ∑ k : Fin 32, l (ix2 p k) * r (ix2 k j) :=
  MatmulAt.matmul_zero_at dot_S16000x32_S32x128_S16000x128_1_0_0_1_n_n rfl rfl lhs32_0 lhs32_1 rhs32_0 rhs32_1 none l r p j

/-- A row of 128 broadcast over 16000 rows reads, at (p, j), the row at j. -/
theorem row_at (v : FVec Ideal S1x128 .f32) (h : S1x128.Broadcasts S16000x128) (p : Fin 16000) (j : Fin 128) :
    broadcastTo S16000x128 v h (ix2 p j) = v (ix2 (0 : Fin 1) j) :=
  broadcastTo_1b_ab_apply v h p j

/-- A single entry broadcast down a column of 16000 reads that entry. -/
theorem one_at (v : FVec Ideal S1x1 .f32) (h : S1x1.Broadcasts S16000x1) (p : Fin 16000) :
    broadcastTo S16000x1 v h (ix2 p (0 : Fin 1)) = v (ix2 (0 : Fin 1) (0 : Fin 1)) :=
  broadcastTo_1b_ab_apply v h p 0

/-- The sum over the 128 lanes of each row, with the neutral accumulator, read at row p. -/
theorem rowsum_at (src : FVec Ideal S16000x128 .f32) (h : S16000x128.Reduces [1] S16000) (hφ : FKind.Formats .f32)
    (hacc : (0x00000000#32 : BitVec 32) = FKind.add.neutral .f32 hφ) (p : Fin 16000) :
    multiReduction .add [1] S16000 src 0x00000000#32 h hφ hacc (ix1 p) = ∑ j : Fin 128, src (ix2 p j) := by
  refine (Ideal.multiReduction_add_single src 0x00000000#32 h hφ hacc (ix1 p)).trans ?_
  refine Finset.sum_congr rfl fun j _ => congrArg src ?_
  funext c
  apply Fin.ext
  match c with
  | ⟨0, _⟩ => rfl
  | ⟨1, _⟩ => rfl

/-- A vector of 16000 row sums turned into a 16000×1 column reads, at (p, 0), the vector at p. -/
theorem col_at (v : FVec Ideal S16000 .f32) (h : S16000.ShapeCasts S16000x1) (p : Fin 16000) :
    shapeCast S16000x1 v h (ix2 p (0 : Fin 1)) = v (ix1 p) :=
  shapeCast_apply v h _ _ (by
    rw [Shape.rowMajor_val_two, Shape.rowMajor_val_one]
    show p.val = p.val * 1 + 0
    omega)

/-! ## The payload at a row -/

/-- The stored column at row `p` is the score of row `p` over the loaded blocks. -/
theorem pay_at (x0 x1 : Vec Ideal S16000x64 .f32) (x2 : Vec Ideal S16000x32 .f32) (x3 x4 : Vec Ideal S64x128 .f32)
    (x5 : Vec Ideal S32x128 .f32) (x6 x7 : Vec Ideal S1x128 .f32) (x8 : Vec Ideal S1x1 .f32) (p : Fin 16000) :
    k0_pay1 (F := Ideal) (k0_pay2 x0 x1 x2 x3 x4 x5 x6 x7) (k0_pay3 x8) (ix2 p (0 : Fin 1))
      = score (R := 16000) x0 x1 x2 x3 x4 x5 x6 x7 x8 p := by
  unfold k0_pay1 k0_pay2 k0_pay3 score hidden
  dsimp only
  simp only [shapeCast_self]
  simp only [addf_apply, col_at, one_at]
  refine congrArg (· + x8 (ix2 (0 : Fin 1) (0 : Fin 1))) ?_
  refine (rowsum_at _ _ _ _ p).trans ?_
  refine Finset.sum_congr rfl fun j _ => ?_
  simp only [mulf_apply, maximumf_apply, addf_apply, row_at, mm64_at, mm32_at, truncf_apply, broadcast_apply]
  rfl

end Cert.EdgeScore.Body

end
-- ==== Proof.KernelBlocks.lean ====
/-
  The arrays the kernel launch reads and its blocks at a grid point.

  The launch runs the body at 100 grid points. Point `t` reads rows `16000·t … 16000·t + 15999` of the two gathered
  node-feature arrays and of the edge attributes, and the whole of every weight and bias array. So the score of local
  row `p` of the blocks at point `t` is the score of row `16000·t + p` of the whole arrays.
-/
import proofs.«406263_j71914932404373_2_alg».proof.Proof.Gen.KernelIdeal.Frame
import proofs.«406263_j71914932404373_2_alg».proof.Proof.KernelBody
import Idealize.ShloMosaic.Lib.Pipeline.Value
import Idealize.ShloMosaic.Lib.StableHlo.Run

set_option maxRecDepth 16384

noncomputable section

namespace Cert.EdgeScore.Kernel

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-! ## The arrays the launch reads, and its blocks at a point, at their literal types -/

abbrev As (c : Dev nD) : Vec Ideal S1600000x64 .f32 := V m c main_v4
abbrev Ad (c : Dev nD) : Vec Ideal S1600000x64 .f32 := V m c main_v5
abbrev Ae (c : Dev nD) : Vec Ideal S1600000x32 .f32 := V m c main_arg2
abbrev Ws (c : Dev nD) : Vec Ideal S64x128 .f32 := V m c main_v6
abbrev Wd (c : Dev nD) : Vec Ideal S64x128 .f32 := V m c main_v7
abbrev Wa (c : Dev nD) : Vec Ideal S32x128 .f32 := V m c main_v8
abbrev B1 (c : Dev nD) : Vec Ideal S1x128 .f32 := V m c main_v9
abbrev W2 (c : Dev nD) : Vec Ideal S1x128 .f32 := V m c main_v10
abbrev B2 (c : Dev nD) : Vec Ideal S1x1 .f32 := V m c main_v11

abbrev xs (c : Dev nD) (t : Fin cfg0.N) : Vec Ideal S16000x64 .f32 := iblk m c 0 t
abbrev xd (c : Dev nD) (t : Fin cfg0.N) : Vec Ideal S16000x64 .f32 := iblk m c 1 t
abbrev xe (c : Dev nD) (t : Fin cfg0.N) : Vec Ideal S16000x32 .f32 := iblk m c 2 t
abbrev ws (c : Dev nD) (t : Fin cfg0.N) : Vec Ideal S64x128 .f32 := iblk m c 3 t
abbrev wd (c : Dev nD) (t : Fin cfg0.N) : Vec Ideal S64x128 .f32 := iblk m c 4 t
abbrev wa (c : Dev nD) (t : Fin cfg0.N) : Vec Ideal S32x128 .f32 := iblk m c 5 t
abbrev b1 (c : Dev nD) (t : Fin cfg0.N) : Vec Ideal S1x128 .f32 := iblk m c 6 t
abbrev w2 (c : Dev nD) (t : Fin cfg0.N) : Vec Ideal S1x128 .f32 := iblk m c 7 t
abbrev b2 (c : Dev nD) (t : Fin cfg0.N) : Vec Ideal S1x1 .f32 := iblk m c 8 t

/-- The output column: the score of every row over the arrays the launch reads. -/
def G (c : Dev nD) : Vec Ideal S1600000x1 .f32 := fun i =>
  score (R := 1600000) (As m c) (Ad m c) (Ae m c) (Ws m c) (Wd m c) (Wa m c) (B1 m c) (W2 m c) (B2 m c) ⟨(i 0).val, (i 0).isLt⟩

/-- The output column at row `e` is the score of row `e`. -/
theorem G_row (c : Dev nD) (e : Fin 1600000) :
    G m c (ix2 e (0 : Fin 1))
      = score (R := 1600000) (As m c) (Ad m c) (Ae m c) (Ws m c) (Wd m c) (Wa m c) (B1 m c) (W2 m c) (B2 m c) e := rfl

/-! ## Which block each window holds at a point -/

/-- The index maps over the grid: the three row-blocked inputs and the output are at block `t`, every other window
    at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `p` of the source-feature block at point `t` is row `16000·t + p` of the array (whatever the array holds). -/
theorem xs_at_gen (t : Fin cfg0.N) (X : ((cfg0.win 0).blk t).view.ty.Contents (Elt Ideal)) (p : Fin 16000) (k : Fin 64)
    (e : Fin 1600000) (he : e.val = t.val * 16000 + p.val) :
    ((cfg0.win 0).blk t).view.read (Elt Ideal) X (ix2 p k) = X (ix2 e k) := by
  obtain ⟨f0, f1, -⟩ := idx_facts t
  have h : ((cfg0.win 0).blk t).view.emb (ix2 p k) = ix2 e k := by
    funext a; apply Fin.ext
    match a with
    | ⟨0, _⟩ => show win0_0.index t (0 : Fin 2) * 16000 + 1 * p.val = e.val; omega
    | ⟨1, _⟩ => show win0_0.index t (1 : Fin 2) * 64 + 1 * k.val = k.val; omega
  rw [View.read_apply, h]
  rfl
theorem xs_at (c : Dev nD) (t : Fin cfg0.N) (p : Fin 16000) (k : Fin 64) (e : Fin 1600000) (he : e.val = t.val * 16000 + p.val) :
    xs m c t (ix2 p k) = As m c (ix2 e k) :=
  xs_at_gen t (V m c (Pipeline.arrRef spec0 0)) p k e he
/-- The same for the destination features. -/
theorem xd_at_gen (t : Fin cfg0.N) (X : ((cfg0.win 1).blk t).view.ty.Contents (Elt Ideal)) (p : Fin 16000) (k : Fin 64)
    (e : Fin 1600000) (he : e.val = t.val * 16000 + p.val) :
    ((cfg0.win 1).blk t).view.read (Elt Ideal) X (ix2 p k) = X (ix2 e k) := by
  obtain ⟨-, -, f0, f1, -⟩ := idx_facts t
  have h : ((cfg0.win 1).blk t).view.emb (ix2 p k) = ix2 e k := by
    funext a; apply Fin.ext
    match a with
    | ⟨0, _⟩ => show win0_1.index t (0 : Fin 2) * 16000 + 1 * p.val = e.val; omega
    | ⟨1, _⟩ => show win0_1.index t (1 : Fin 2) * 64 + 1 * k.val = k.val; omega
  rw [View.read_apply, h]
  rfl
theorem xd_at (c : Dev nD) (t : Fin cfg0.N) (p : Fin 16000) (k : Fin 64) (e : Fin 1600000) (he : e.val = t.val * 16000 + p.val) :
    xd m c t (ix2 p k) = Ad m c (ix2 e k) :=
  xd_at_gen t (V m c (Pipeline.arrRef spec0 1)) p k e he
/-- The same for the edge attributes. -/
theorem xe_at_gen (t : Fin cfg0.N) (X : ((cfg0.win 2).blk t).view.ty.Contents (Elt Ideal)) (p : Fin 16000) (k : Fin 32)
    (e : Fin 1600000) (he : e.val = t.val * 16000 + p.val) :
    ((cfg0.win 2).blk t).view.read (Elt Ideal) X (ix2 p k) = X (ix2 e k) := by
  obtain ⟨-, -, -, -, f0, f1, -⟩ := idx_facts t
  have h : ((cfg0.win 2).blk t).view.emb (ix2 p k) = ix2 e k := by
    funext a; apply Fin.ext
    match a with
    | ⟨0, _⟩ => show win0_2.index t (0 : Fin 2) * 16000 + 1 * p.val = e.val; omega
    | ⟨1, _⟩ => show win0_2.index t (1 : Fin 2) * 32 + 1 * k.val = k.val; omega
  rw [View.read_apply, h]
  rfl
theorem xe_at (c : Dev nD) (t : Fin cfg0.N) (p : Fin 16000) (k : Fin 32) (e : Fin 1600000) (he : e.val = t.val * 16000 + p.val) :
    xe m c t (ix2 p k) = Ae m c (ix2 e k) :=
  xe_at_gen t (V m c (Pipeline.arrRef spec0 2)) p k e he

/-- Every weight and bias window holds its whole array at every point. -/
theorem ws_eq_gen (t : Fin cfg0.N) (X : ((cfg0.win 3).blk t).view.ty.Contents (Elt Ideal)) (y : S64x128.Idx) :
    ((cfg0.win 3).blk t).view.read (Elt Ideal) X y = X y := by
  obtain ⟨-, -, -, -, -, -, f0, f1, -⟩ := idx_facts t
  have h : ((cfg0.win 3).blk t).view.emb y = y := by
    funext a; apply Fin.ext
    match a with
    | ⟨0, _⟩ => show win0_3.index t (0 : Fin 2) * 64 + 1 * (y 0).val = (y 0).val; omega
    | ⟨1, _⟩ => show win0_3.index t (1 : Fin 2) * 128 + 1 * (y 1).val = (y 1).val; omega
  rw [View.read_apply, h]
  rfl
theorem ws_eq (c : Dev nD) (t : Fin cfg0.N) : ws m c t = Ws m c :=
  funext fun y => ws_eq_gen t (V m c (Pipeline.arrRef spec0 3)) y
theorem wd_eq_gen (t : Fin cfg0.N) (X : ((cfg0.win 4).blk t).view.ty.Contents (Elt Ideal)) (y : S64x128.Idx) :
    ((cfg0.win 4).blk t).view.read (Elt Ideal) X y = X y := by
  obtain ⟨-, -, -, -, -, -, -, -, f0, f1, -⟩ := idx_facts t
  have h : ((cfg0.win 4).blk t).view.emb y = y := by
    funext a; apply Fin.ext
    match a with
    | ⟨0, _⟩ => show win0_4.index t (0 : Fin 2) * 64 + 1 * (y 0).val = (y 0).val; omega
    | ⟨1, _⟩ => show win0_4.index t (1 : Fin 2) * 128 + 1 * (y 1).val = (y 1).val; omega
  rw [View.read_apply, h]
  rfl
theorem wd_eq (c : Dev nD) (t : Fin cfg0.N) : wd m c t = Wd m c :=
  funext fun y => wd_eq_gen t (V m c (Pipeline.arrRef spec0 4)) y
theorem wa_eq_gen (t : Fin cfg0.N) (X : ((cfg0.win 5).blk t).view.ty.Contents (Elt Ideal)) (y : S32x128.Idx) :
    ((cfg0.win 5).blk t).view.read (Elt Ideal) X y = X y := by
  obtain ⟨-, -, -, -, -, -, -, -, -, -, f0, f1, -⟩ := idx_facts t
  have h : ((cfg0.win 5).blk t).view.emb y = y := by
    funext a; apply Fin.ext
    match a with
    | ⟨0, _⟩ => show win0_5.index t (0 : Fin 2) * 32 + 1 * (y 0).val = (y 0).val; omega
    | ⟨1, _⟩ => show win0_5.index t (1 : Fin 2) * 128 + 1 * (y 1).val = (y 1).val; omega
  rw [View.read_apply, h]
  rfl
theorem wa_eq (c : Dev nD) (t : Fin cfg0.N) : wa m c t = Wa m c :=
  funext fun y => wa_eq_gen t (V m c (Pipeline.arrRef spec0 5)) y
theorem b1_eq_gen (t : Fin cfg0.N) (X : ((cfg0.win 6).blk t).view.ty.Contents (Elt Ideal)) (y : S1x128.Idx) :
    ((cfg0.win 6).blk t).view.read (Elt Ideal) X y = X y := by
  obtain ⟨-, -, -, -, -, -, -, -, -, -, -, -, f0, f1, -⟩ := idx_facts t
  have h : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 128 + 1 * (y 1).val = (y 1).val; omega
  rw [View.read_apply, h]
  rfl
theorem b1_eq (c : Dev nD) (t : Fin cfg0.N) : b1 m c t = B1 m c :=
  funext fun y => b1_eq_gen t (V m c (Pipeline.arrRef spec0 6)) y
theorem w2_eq_gen (t : Fin cfg0.N) (X : ((cfg0.win 7).blk t).view.ty.Contents (Elt Ideal)) (y : S1x128.Idx) :
    ((cfg0.win 7).blk t).view.read (Elt Ideal) X y = X y := by
  obtain ⟨-, -, -, -, -, -, -, -, -, -, -, -, -, -, f0, f1, -⟩ := idx_facts t
  have h : ((cfg0.win 7).blk t).view.emb y = y := by
    funext a; apply Fin.ext
    match a with
    | ⟨0, _⟩ => show win0_7.index t (0 : Fin 2) * 1 + 1 * (y 0).val = (y 0).val; omega
    | ⟨1, _⟩ => show win0_7.index t (1 : Fin 2) * 128 + 1 * (y 1).val = (y 1).val; omega
  rw [View.read_apply, h]
  rfl
theorem w2_eq (c : Dev nD) (t : Fin cfg0.N) : w2 m c t = W2 m c :=
  funext fun y => w2_eq_gen t (V m c (Pipeline.arrRef spec0 7)) y
theorem b2_eq_gen (t : Fin cfg0.N) (X : ((cfg0.win 8).blk t).view.ty.Contents (Elt Ideal)) (y : S1x1.Idx) :
    ((cfg0.win 8).blk t).view.read (Elt Ideal) X y = X y := by
  obtain ⟨-, -, -, -, -, -, -, -, -, -, -, -, -, -, -, -, f0, f1, -⟩ := idx_facts t
  have h : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 1 + 1 * (y 1).val = (y 1).val; omega
  rw [View.read_apply, h]
  rfl
theorem b2_eq (c : Dev nD) (t : Fin cfg0.N) : b2 m c t = B2 m c :=
  funext fun y => b2_eq_gen t (V m c (Pipeline.arrRef spec0 8)) y

/-- The score of a row of three row blocks is the score of the row of the arrays they are blocks of. -/
theorem score_rows (A0 A1 : Vec Ideal S1600000x64 .f32) (A2 : Vec Ideal S1600000x32 .f32) (x0 x1 : Vec Ideal S16000x64 .f32)
    (x2 : Vec Ideal S16000x32 .f32) (x3 x4 : Vec Ideal S64x128 .f32) (x5 : Vec Ideal S32x128 .f32) (x6 x7 : Vec Ideal S1x128 .f32)
    (x8 : Vec Ideal S1x1 .f32) (e : Fin 1600000) (p : Fin 16000)
    (h0 : ∀ k, x0 (ix2 p k) = A0 (ix2 e k)) (h1 : ∀ k, x1 (ix2 p k) = A1 (ix2 e k)) (h2 : ∀ k, x2 (ix2 p k) = A2 (ix2 e k)) :
    score (R := 16000) x0 x1 x2 x3 x4 x5 x6 x7 x8 p = score (R := 1600000) A0 A1 A2 x3 x4 x5 x6 x7 x8 e := by
  unfold score hidden
  simp only [h0, h1, h2]

end Cert.EdgeScore.Kernel

end
-- ==== Proof.KernelFlush.lean ====
/-
  What a grid point writes back: point `t` writes rows `16000·t … 16000·t + 15999` of the one-column output, and what
  it writes at local row `p` is the score of row `p` of its blocks (KernelBody.lean), that is the score of row
  `16000·t + p` of the whole arrays (KernelBlocks.lean): block `t` of the column of all scores.
-/
import proofs.«406263_j71914932404373_2_alg».proof.Proof.Gen.KernelIdeal.Frame
import proofs.«406263_j71914932404373_2_alg».proof.Proof.KernelBody
import proofs.«406263_j71914932404373_2_alg».proof.Proof.KernelBlocks
import Idealize.ShloMosaic.Lib.Pipeline.Value
import Idealize.ShloMosaic.Lib.StableHlo.Run

set_option maxRecDepth 16384

noncomputable section

namespace Cert.EdgeScore.Kernel

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-! ## What a point writes back -/

/-- For ANY column `P` of 16000 values and any array `Gv` of 1600000: if row `p` of `P` is row `16000·t + p` of `Gv`,
    then `P` is block `t` of `Gv` as the output window reads it. -/
theorem block_of_rows (t : Fin cfg0.N) (P : Vec Ideal S16000x1 .f32) (Gv : ((cfg0.win 9).blk t).view.ty.Contents (Elt Ideal))
    (h : ∀ (p : Fin 16000) (e : Fin 1600000), e.val = t.val * 16000 + p.val → P (ix2 p (0 : Fin 1)) = Gv (ix2 e (0 : Fin 1))) :
    (cfg0.win 9).cut (grid0.coords t) P = ((cfg0.win 9).blk t).view.read (Elt Ideal) Gv := by
  obtain ⟨-, -, -, -, -, -, -, -, -, -, -, -, -, -, -, -, -, -, f0, f1⟩ := idx_facts t
  funext j
  rw [View.read_apply]
  have hj0 : (j 0).val < 16000 := (j 0).isLt
  have hj1 : (j 1).val < 1 := (j 1).isLt
  have hN : cfg0.N = 100 := N_0
  have ht : t.val < 100 := hN ▸ t.isLt
  have ej : (j : S16000x1.Idx) = ix2 (⟨(j 0).val, hj0⟩ : Fin 16000) (0 : Fin 1) := by
    funext a; apply Fin.ext
    match a with
    | ⟨0, _⟩ => rfl
    | ⟨1, _⟩ => show (j 1).val = 0; omega
  have hemb : ((cfg0.win 9).blk t).view.emb j = ix2 (⟨t.val * 16000 + (j 0).val, by omega⟩ : Fin 1600000) (0 : Fin 1) := by
    funext a; apply Fin.ext
    match a with
    | ⟨0, _⟩ => show win0_9.index t (0 : Fin 2) * 16000 + 1 * (j 0).val = t.val * 16000 + (j 0).val; omega
    | ⟨1, _⟩ => show win0_9.index t (1 : Fin 2) * 1 + 1 * (j 1).val = 0; omega
  show P j = Gv (((cfg0.win 9).blk t).view.emb j)
  rw [hemb]
  exact (congrArg P ej).trans (h _ _ rfl)

/-- What point `t` writes back is block `t` of the output column `G`. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz]
  simp only [View.ld_unit_zero (S := S16000x64) hz, View.ld_unit_zero (S := S16000x32) hz, View.ld_unit_zero (S := S64x128) hz,
    View.ld_unit_zero (S := S32x128) hz, View.ld_unit_zero (S := S1x128) hz, View.ld_unit_zero (S := S1x1) hz]
  refine block_of_rows t _ (G m c) fun p e he => ?_
  refine (Body.pay_at (xs m c t) (xd m c t) (xe m c t) (ws m c t) (wd m c t) (wa m c t) (b1 m c t) (w2 m c t) (b2 m c t) p).trans ?_
  rw [ws_eq, wd_eq, wa_eq, b1_eq, w2_eq, b2_eq]
  refine (score_rows (As m c) (Ad m c) (Ae m c) (xs m c t) (xd m c t) (xe m c t) (Ws m c) (Wd m c) (Wa m c) (B1 m c) (W2 m c) (B2 m c) e p
    (fun k => xs_at m c t p k e he) (fun k => xd_at m c t p k e he) (fun k => xe_at m c t p k e he)).trans ?_
  exact (G_row m c e).symm

end Cert.EdgeScore.Kernel

end
-- ==== Proof.KernelCover.lean ====
/-
  The kernel's output array after the launch, and the program's result after the last host line.

  The 100 blocks of 16000 rows tile the 1600000 rows of the output column — row `r` is written back by point
  `r / 16000` — so the array ends holding the score of every row. The last host line turns the column into a vector.
-/
import proofs.«406263_j71914932404373_2_alg».proof.Proof.Gen.KernelIdeal.Frame
import proofs.«406263_j71914932404373_2_alg».proof.Proof.KernelFlush
import Idealize.ShloMosaic.Lib.Pipeline.Value
import Idealize.ShloMosaic.Lib.StableHlo.Run

set_option maxRecDepth 16384

noncomputable section

namespace Cert.EdgeScore.Kernel

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-- An index of the column is in point `t`'s block iff each coordinate is in the block's range. -/
theorem mem_blk (t : Fin cfg0.N) (i : S1600000x1.Idx) :
    i ∈ ((cfg0.win 9).blk t).view.set ↔ ∀ a : Fin 2, win0_9.index t a * S16000x1.size a ≤ (i a).val ∧ (i a).val < win0_9.index t a * S16000x1.size a + S16000x1.size a := by
  show i ∈ ((View.whole main_v12).slice (win0_9.rect t)).set ↔ _
  rw [View.set_slice_whole, Rect.mem_set_unit]
  exact Iff.rfl

/-- Row `r` of the column is written back by point `r / 16000`. -/
theorem cover (i : S1600000x1.Idx) :
    ∃ t : Fin cfg0.N, (cfg0.win 9).flush t = true ∧ i ∈ ((cfg0.win 9).blk t).view.set := by
  have hi0 : (i 0).val < 1600000 := (i 0).isLt
  have hi1 : (i 1).val < 1 := (i 1).isLt
  have hN : cfg0.N = 100 := N_0
  obtain ⟨t, ht⟩ : ∃ t : Fin cfg0.N, t.val = (i 0).val / 16000 := ⟨⟨(i 0).val / 16000, by rw [hN]; omega⟩, rfl⟩
  obtain ⟨-, -, -, -, -, -, -, -, -, -, -, -, -, -, -, -, -, -, f0, f1⟩ := idx_facts t
  refine ⟨t, flush0_9 t, ?_⟩
  rw [mem_blk]
  intro a
  match a with
  | ⟨0, _⟩ =>
    show win0_9.index t (0 : Fin 2) * 16000 ≤ (i 0).val ∧ (i 0).val < win0_9.index t (0 : Fin 2) * 16000 + 16000
    omega
  | ⟨1, _⟩ =>
    show win0_9.index t (1 : Fin 2) * 1 ≤ (i 1).val ∧ (i 1).val < win0_9.index t (1 : Fin 2) * 1 + 1
    omega

/-- The output array after the launch is the column of scores. -/
theorem final (c : Dev nD) : (dats m 0 c).arrAt 9 cfg0.N = G m c :=
  (dats m 0 c).arrAt_eq_of_cover 9 (G m c) (fun t _ => flushed_eq m c t) cover

/-! ## The last host line -/

/-- The program's result: the column of scores as a vector. -/
theorem tail_eq (c : Dev nD) :
    Pipeline.afterTail₀ cfgs (dats m) 0 (V0 m) [hostOps1] c main_v13
      = shapeCast S1600000 (G m c) shapeCasts_S1600000x1_S1600000 := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.tc.devRef main_v12) = G m c :=
    (Pipeline.withArrays_arr spec0 launch0.win.arr_inj c _ _ 9).trans (final m c)
  rw [hw]
  generalize G m c = g
  rfl

/-! ## The run -/

/-- Every weakly fair execution of the kernel program terminates with its result at the vector of scores and its
    arguments unchanged: the frame run, its result read through the last host line. -/
theorem run : θ_run defs (onTc (τ := τ) (main (F := Ideal))) ⟨m, fun _ => 0, ρ⟩ (fun r => ∀ c : Dev nD,
      r.2.mem ((c.tc : Thread nD τ).loc main_v13) = shapeCast S1600000 (G m c) shapeCasts_S1600000x1_S1600000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.EdgeScore.Kernel

end
-- ==== Proof.HostPrefix.lean ====
/-
  What the host lines before the kernel launch leave in the arrays the launch reads.

  The two node-feature tables are `take`s of the node array at the source and the destination row of the edge-index
  array: a negative word has the node count added, the row is then gathered, and a row whose (shifted) word falls
  outside `[0, 49999]` is replaced by a fill value. Where every word is a node number the shift never happens, the
  bounds test is all ones, and the take is the plain gather. The first weight matrix is cut into its three bands of
  rows, and the two biases and the second weight column are re-laid as rows.
-/
import proofs.«406263_j71914932404373_2_alg».proof.Proof.Gen.KernelIdeal.Frame
import Idealize.ShloMosaic.Lib.StableHlo.Run
import Idealize.ShloMosaic.Lib.ReduceAll
import Idealize.ShloMosaic.Lib.Pipeline.Value
import Idealize.ShloMosaic.Lib.ValueIdx

set_option maxRecDepth 16384

noncomputable section

namespace Cert.EdgeScore.Host

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]

/-! ## The take, as a function of the node array and a vector of words -/

/-- The source row of the edge-index array, as a vector of 1600000 words. -/
def srcWords (a1 : IVec S2x1600000 32) : IVec S1600000 32 :=
  shapeCast S1600000 (extractStridedSlice S1x1600000 ![0, 0] a1 slices_S2x1600000_S1x1600000_0_0) shapeCasts_S1x1600000_S1600000

/-- The destination row. -/
def dstWords (a1 : IVec S2x1600000 32) : IVec S1600000 32 :=
  shapeCast S1600000 (extractStridedSlice S1x1600000 ![1, 0] a1 slices_S2x1600000_S1x1600000_1_0) shapeCasts_S1x1600000_S1600000

/-- The words with the node count added to the negative ones, as the column of start indices a gather takes. -/
def wrapCol (w : IVec S1600000 32) : IVec S1600000x1 32 :=
  broadcastInDim S1600000x1 ![0] bcast_S1600000_S1600000x1_0
    (select (cmpi .slt w (broadcastInDim S1600000 ![] bcast_S_S1600000 (constantI S_ 32 0#32)))
      (addi w (broadcastInDim S1600000 ![] bcast_S_S1600000 (constantI S_ 32 50000#32))) w)

/-- Per edge: is its start index inside `[0, 49999]`? -/
def inBounds (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The gather that the start-index column names. -/
def rowsOf (z : FVec F S50000x64 .f32) (col : IVec S1600000x1 32) : FVec F S1600000x64 .f32 :=
  Host.gather gather_S50000x64_S1600000x1_S1600000x64_1_0_n_n_0_1_164 z col

/-- The take: the gathered rows, the fill value where the start index is out of bounds. -/
def takeFill (z : FVec F S50000x64 .f32) (w : IVec S1600000 32) : FVec F S1600000x64 .f32 :=
  select (broadcastInDim S1600000x64 ![0] bcast_S1600000_S1600000x64_0 (inBounds (wrapCol w)))
    (rowsOf z (wrapCol w))
    (broadcastInDim S1600000x64 ![] bcast_S_S1600000x64 (constant S_ .f32 0x7FC00000#32))

/-! ## In range, the take is the gather -/

/-- A left fold by `and` from 1 over words that are all 1 is 1. -/
theorem foldl_andi_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_all_one f l _ ?_ (fun n hn => hl n (List.mem_cons_of_mem _ hn))
    exact IntOp.andi_eq_one.2 ⟨h, hl a (List.mem_cons_self ..)⟩

theorem toInt_zero : (0#32 : BitVec 32).toInt = 0 := by decide
theorem toInt_count : (50000#32 : BitVec 32).toInt = 50000 := by decide
theorem toInt_last : (49999#32 : BitVec 32).toInt = 49999 := by decide

/-- A start index of words that are node numbers is the word itself, so again a node number. -/
theorem wrapCol_range (w : IVec S1600000 32) (hw : ∀ i, 0 ≤ (w i).toInt ∧ (w i).toInt < 50000) (i : S1600000x1.Idx) :
    0 ≤ (wrapCol w i).toInt ∧ (wrapCol w i).toInt ≤ 49999 := by
  have e : wrapCol w i = Scalar.select (IntOp.cmpi .slt (w (ix1 ⟨(i 0).val, (i 0).isLt⟩)) 0#32)
      (IntOp.addi (w (ix1 ⟨(i 0).val, (i 0).isLt⟩)) 50000#32) (w (ix1 ⟨(i 0).val, (i 0).isLt⟩)) :=
    broadcastInDim_apply _ bcast_S1600000_S1600000x1_0 _ i (ix1 ⟨(i 0).val, (i 0).isLt⟩) (fun a => match a with
      | ⟨0, _⟩ => by show (i 0).val = if (1600000 : Nat) = 1 then 0 else (i 0).val; rw [if_neg (by decide)])
  obtain ⟨h0, h1⟩ := hw (ix1 ⟨(i 0).val, (i 0).isLt⟩)
  have hn : ¬ IntOp.cmpi .slt (w (ix1 ⟨(i 0).val, (i 0).isLt⟩)) 0#32 = 1#1 := fun h => by
    have := IntOp.cmpi_slt.1 h
    rw [toInt_zero] at this
    omega
  rw [e, show Scalar.select (IntOp.cmpi .slt (w (ix1 ⟨(i 0).val, (i 0).isLt⟩)) 0#32) _ _ = w (ix1 ⟨(i 0).val, (i 0).isLt⟩) from if_neg hn]
  omega

/-- The bounds test of in-range start indices is all ones. -/
theorem inBounds_one (col : IVec S1600000x1 32) (hcol : ∀ i, 0 ≤ (col i).toInt ∧ (col i).toInt ≤ 49999) (j : S1600000.Idx) :
    inBounds col j = 1#1 := by
  unfold inBounds
  rw [Host.reduce_eq_foldl]
  refine foldl_andi_all_one _ _ _ rfl fun i _ => ?_
  show IntOp.andi (IntOp.cmpi .sge (col i) 0#32) (IntOp.cmpi .sle (col i) 49999#32) = 1#1
  obtain ⟨h0, h1⟩ := hcol i
  exact IntOp.andi_eq_one.2 ⟨IntOp.cmpi_sge.2 (by rw [toInt_zero]; exact h0), IntOp.cmpi_sle.2 (by rw [toInt_last]; exact h1)⟩

/-- Where every word is a node number, the take is the gather at the start-index column. -/
theorem takeFill_of_range (z : FVec F S50000x64 .f32) (w : IVec S1600000 32)
    (hw : ∀ i, 0 ≤ (w i).toInt ∧ (w i).toInt < 50000) : takeFill z w = rowsOf z (wrapCol w) := by
  funext j
  unfold takeFill
  rw [select_apply]
  have hc : broadcastInDim S1600000x64 ![0] bcast_S1600000_S1600000x64_0 (inBounds (wrapCol w)) j = 1#1 :=
    inBounds_one (wrapCol w) (wrapCol_range w hw) _
  rw [hc]
  exact select_one _ _

/-- Each word of the source row is a word of the edge-index array. -/
theorem srcWords_mem (a1 : IVec S2x1600000 32) (i : S1600000.Idx) : ∃ k, srcWords a1 i = a1 k := ⟨_, rfl⟩
/-- Each word of the destination row is a word of the edge-index array. -/
theorem dstWords_mem (a1 : IVec S2x1600000 32) (i : S1600000.Idx) : ∃ k, dstWords a1 i = a1 k := ⟨_, rfl⟩

/-! ## The arrays as the launch finds them -/

/-- Contents carried to a buffer's own type and back are the contents. -/
theorem ofBuf_toBuf {Val : EltTy → Type} {T : BufTy} (x : TRef sig T) (v : T.Contents Val) : x.ofBuf (x.toBuf v) = v := by
  obtain ⟨r, rfl, _, _⟩ := x
  rfl

variable (m : (ℓ : Loc nD τ sig) → Buf (Elt F) ℓ)

set_option maxHeartbeats 4000000 in
/-- The source-node features the launch reads: the take of the node array at the source words. -/
theorem V_src (c : Dev nD) :
    (V m c main_v4 : S1600000x64.Idx → F .f32) = takeFill (m ((c : Thread nD τ).loc main_arg0)) (srcWords (m ((c : Thread nD τ).loc main_arg1))) := by
  dsimp only [V, V0]
  simp only [hostOps0, hostOps0_1, hostOps0_2, hostOps0_3, List.flatten_cons, List.flatten_nil, List.append_nil, List.cons_append,
    List.nil_append]
  after_results_simp
  simp only [ofBuf_toBuf]
  have top : ∀ X : (⟨S1600000x64, .f32⟩ : BufTy).Contents (Elt F),
      (TRef.of (T := ⟨S1600000x64, .f32⟩) main_v4 rfl (by decide) rfl).toBuf X = X := fun X => rfl
  refine (top _).trans ?_
  unfold takeFill rowsOf inBounds wrapCol srcWords
  rfl

set_option maxHeartbeats 4000000 in
/-- The destination-node features: the take at the destination words. -/
theorem V_dst (c : Dev nD) :
    (V m c main_v5 : S1600000x64.Idx → F .f32) = takeFill (m ((c : Thread nD τ).loc main_arg0)) (dstWords (m ((c : Thread nD τ).loc main_arg1))) := by
  dsimp only [V, V0]
  simp only [hostOps0, hostOps0_1, hostOps0_2, hostOps0_3, List.flatten_cons, List.flatten_nil, List.append_nil, List.cons_append,
    List.nil_append]
  after_results_simp
  simp only [ofBuf_toBuf]
  have top : ∀ X : (⟨S1600000x64, .f32⟩ : BufTy).Contents (Elt F),
      (TRef.of (T := ⟨S1600000x64, .f32⟩) main_v5 rfl (by decide) rfl).toBuf X = X := fun X => rfl
  refine (top _).trans ?_
  unfold takeFill rowsOf inBounds wrapCol dstWords
  rfl

/-- Rows 0–63 of the first weight matrix. -/
theorem V_w1s (c : Dev nD) :
    (V m c main_v6 : S64x128.Idx → F .f32) = extractStridedSlice S64x128 ![0, 0] (m ((c : Thread nD τ).loc main_arg3)) slices_S160x128_S64x128_0_0 := by
  dsimp only [V, V0]
  simp only [hostOps0, hostOps0_1, hostOps0_2, hostOps0_3, List.flatten_cons, List.flatten_nil, List.append_nil, List.cons_append,
    List.nil_append]
  after_results

/-- Rows 64–127. -/
theorem V_w1d (c : Dev nD) :
    (V m c main_v7 : S64x128.Idx → F .f32) = extractStridedSlice S64x128 ![64, 0] (m ((c : Thread nD τ).loc main_arg3)) slices_S160x128_S64x128_64_0 := by
  dsimp only [V, V0]
  simp only [hostOps0, hostOps0_1, hostOps0_2, hostOps0_3, List.flatten_cons, List.flatten_nil, List.append_nil, List.cons_append,
    List.nil_append]
  after_results

/-- Rows 128–159. -/
theorem V_w1a (c : Dev nD) :
    (V m c main_v8 : S32x128.Idx → F .f32) = extractStridedSlice S32x128 ![128, 0] (m ((c : Thread nD τ).loc main_arg3)) slices_S160x128_S32x128_128_0 := by
  dsimp only [V, V0]
  simp only [hostOps0, hostOps0_1, hostOps0_2, hostOps0_3, List.flatten_cons, List.flatten_nil, List.append_nil, List.cons_append,
    List.nil_append]
  after_results

/-- The first bias as a row. -/
theorem V_b1 (c : Dev nD) :
    (V m c main_v9 : S1x128.Idx → F .f32) = shapeCast S1x128 (m ((c : Thread nD τ).loc main_arg4)) shapeCasts_S128_S1x128 := by
  dsimp only [V, V0]
  simp only [hostOps0, hostOps0_1, hostOps0_2, hostOps0_3, List.flatten_cons, List.flatten_nil, List.append_nil, List.cons_append,
    List.nil_append]
  after_results
  rfl

/-- The second weight column as a row. -/
theorem V_w2 (c : Dev nD) :
    (V m c main_v10 : S1x128.Idx → F .f32) = shapeCast S1x128 (m ((c : Thread nD τ).loc main_arg5)) shapeCasts_S128x1_S1x128 := by
  dsimp only [V, V0]
  simp only [hostOps0, hostOps0_1, hostOps0_2, hostOps0_3, List.flatten_cons, List.flatten_nil, List.append_nil, List.cons_append,
    List.nil_append]
  after_results
  rfl

/-- The second bias as a 1×1 array. -/
theorem V_b2 (c : Dev nD) :
    (V m c main_v11 : S1x1.Idx → F .f32) = shapeCast S1x1 (m ((c : Thread nD τ).loc main_arg6)) shapeCasts_S1_S1x1 := by
  dsimp only [V, V0]
  simp only [hostOps0, hostOps0_1, hostOps0_2, hostOps0_3, List.flatten_cons, List.flatten_nil, List.append_nil, List.cons_append,
    List.nil_append]
  after_results
  rfl

end Cert.EdgeScore.Host

end
-- ==== Proof.RefValue.lean ====
/-
  The reference's result at an edge is the score of Spec.lean.

  The reference gathers the two node rows, joins them with the edge's attributes into 160 features, multiplies by the
  whole first weight matrix, adds the bias, rectifies, multiplies by the second weight column and adds the second
  bias. Read at an edge: the product over the 160 joined features splits into the sums over its three parts, each
  part reading its own operand of the join; that is the kernel's grouping of the same terms.
-/
import proofs.«406263_j71914932404373_2_alg».proof.Proof.Gen.ReferenceIdeal.Read
import proofs.«406263_j71914932404373_2_alg».proof.Proof.Spec
import Idealize.ShloMosaic.Lib.Pipeline.Value
import Idealize.ShloMosaic.Lib.ValueIdx

noncomputable section

namespace Cert.EdgeScore.Ref

open Cert.ReferenceIdeal Cert.ReferenceIdeal.Gen Cert.ReferenceIdeal.Read Idealize.ShloMosaic Idealize.ShloMosaic.ValueIdx

/-- The join of two 64-column arrays and a 32-column array along the columns, read at row `p`: columns 0–63 read
    the first, 64–127 the second, 128–159 the third. -/
theorem join_at (y0 y1 : S1600000x64.Idx → EReal) (y2 : S1600000x32.Idx → EReal)
    (h : Shape.Concatenates [S1600000x64, S1600000x64, S1600000x32] S1600000x160 1) (p : Fin 1600000) :
    (∀ k : Fin 64, concatenate S1600000x160 1 [⟨S1600000x64, y0⟩, ⟨S1600000x64, y1⟩, ⟨S1600000x32, y2⟩] h (ix2 p ⟨k.val, by omega⟩) = y0 (ix2 p k))
    ∧ (∀ k : Fin 64, concatenate S1600000x160 1 [⟨S1600000x64, y0⟩, ⟨S1600000x64, y1⟩, ⟨S1600000x32, y2⟩] h (ix2 p ⟨64 + k.val, by omega⟩) = y1 (ix2 p k))
    ∧ (∀ k : Fin 32, concatenate S1600000x160 1 [⟨S1600000x64, y0⟩, ⟨S1600000x64, y1⟩, ⟨S1600000x32, y2⟩] h (ix2 p ⟨128 + k.val, by omega⟩) = y2 (ix2 p k)) := by
  refine ⟨fun k => ?_, fun k => ?_, fun k => ?_⟩
  · refine concatenate_apply_piece 1 [⟨S1600000x64, y0⟩, ⟨S1600000x64, y1⟩, ⟨S1600000x32, y2⟩] h _ 0 (by show (0 : Nat) < 3; omega) S1600000x64 y0 rfl rfl 0 rfl (ix2 p k) (fun b hb => ?_) ?_
    · match b with
      | ⟨0, _⟩ => rfl
      | ⟨1, _⟩ => exact absurd rfl hb
    · show 0 + k.val = k.val
      omega
  · refine concatenate_apply_piece 1 [⟨S1600000x64, y0⟩, ⟨S1600000x64, y1⟩, ⟨S1600000x32, y2⟩] h _ 1 (by show (1 : Nat) < 3; omega) S1600000x64 y1 rfl rfl 64 rfl (ix2 p k) (fun b hb => ?_) ?_
    · match b with
      | ⟨0, _⟩ => rfl
      | ⟨1, _⟩ => exact absurd rfl hb
    · rfl
  · refine concatenate_apply_piece 1 [⟨S1600000x64, y0⟩, ⟨S1600000x64, y1⟩, ⟨S1600000x32, y2⟩] h _ 2 (by show (2 : Nat) < 3; omega) S1600000x32 y2 rfl rfl 128 rfl (ix2 p k) (fun b hb => ?_) ?_
    · match b with
      | ⟨0, _⟩ => rfl
      | ⟨1, _⟩ => exact absurd rfl hb
    · rfl

/-- The reference's result at edge `p` is the score of row `p` over the two gathered arrays, the edge attributes,
    the three bands of the first weight matrix, and the biases and second weight column as rows. -/
theorem ref_at (x0 : (⟨S50000x64, .f32⟩ : BufTy).Contents (Elt Ideal)) (x1 : (⟨S2x1600000, .i32⟩ : BufTy).Contents (Elt Ideal))
    (x2 : (⟨S1600000x32, .f32⟩ : BufTy).Contents (Elt Ideal)) (x3 : (⟨S160x128, .f32⟩ : BufTy).Contents (Elt Ideal))
    (x4 : (⟨S128, .f32⟩ : BufTy).Contents (Elt Ideal)) (x5 : (⟨S128x1, .f32⟩ : BufTy).Contents (Elt Ideal))
    (x6 : (⟨S1, .f32⟩ : BufTy).Contents (Elt Ideal)) (p : Fin 1600000) :
    val_main_v28 (F := Ideal) x0 x1 x2 x3 x4 x5 x6 (ix1 p)
      = score (R := 1600000) (val_main_v10 (F := Ideal) x0 x1) (val_main_v17 (F := Ideal) x0 x1) x2
          (band 0 (by omega) x3) (band 64 (by omega) x3) (band 128 (by omega) x3) (rowOfVec x4) (rowOfCol x5) (oneOfVec x6) p := by
  have e1 : ∀ k : Fin 128, lidx_main_v24 (idx_main_v28 (ix1 p)) k = ix2 p k := fun k => funext fun a => Fin.ext (by
    match a with
    | ⟨0, _⟩ => exact Nat.div_one _
    | ⟨1, _⟩ => rfl)
  have e2 : ∀ k : Fin 128, ridx_main_v24 (idx_main_v28 (ix1 p)) k = ix2 k (0 : Fin 1) := fun k => funext fun a => Fin.ext (by
    match a with
    | ⟨0, _⟩ => rfl
    | ⟨1, _⟩ => rfl)
  have e3 : ∀ (j : Fin 128) (k : Fin 160), lidx_main_v19 (ix2 p j) k = ix2 p k := fun j k => funext fun a => Fin.ext (by
    match a with
    | ⟨0, _⟩ => rfl
    | ⟨1, _⟩ => rfl)
  have e4 : ∀ (j : Fin 128) (k : Fin 160), ridx_main_v19 (ix2 p j) k = ix2 k j := fun j k => funext fun a => Fin.ext (by
    match a with
    | ⟨0, _⟩ => rfl
    | ⟨1, _⟩ => rfl)
  have e5 : ∀ j : Fin 128, idx_main_v20 (idx_main_v21 (ix2 p j)) = ix1 j := fun j => funext fun a => Fin.ext (by
    match a with
    | ⟨0, _⟩ => rfl)
  have e6 : idx_main_v25 (idx_main_v26 (idx_main_v28 (ix1 p))) = ix1 (0 : Fin 1) := funext fun a => Fin.ext (by
    match a with
    | ⟨0, _⟩ => rfl)
  obtain ⟨c0, c1, c2⟩ := join_at (val_main_v10 (F := Ideal) x0 x1) (val_main_v17 (F := Ideal) x0 x1) x2
    concatenates_S1600000x64_S1600000x64_S1600000x32_S1600000x160_d1 p
  rw [val_main_v28_apply, val_main_v27_apply, val_main_v24_apply, val_main_v26_apply, val_main_v25_apply, e6]
  simp only [e1, e2, val_main_v23_apply, val_main_v22_apply, val_main_v19_apply, val_main_v21_apply, val_main_v20_apply,
    val_main_call0_v0_apply, val_main_call0_cst_apply, e3, e4, e5, Ideal.addf_def, Ideal.maximumf_def, Ideal.ofBits_def]
  unfold score hidden
  refine congrArg (· + x6 (ix1 (0 : Fin 1))) ?_
  refine Finset.sum_congr rfl fun j _ => ?_
  rw [sum_fin160_split]
  unfold val_main_v18
  simp only [c0, c1, c2]
  rfl

end Cert.EdgeScore.Ref

end
-- ==== Proof.PreDecode.lean ====
/-
  The precondition read back at one edge: every word of the edge-index array is a node number, `0 ≤ w < 50000`.

  The printed precondition is a conjunction whose last conjunct is `jnp.all` of "index ≥ 0 and index < 50000" over
  the 2 × 1600000 index array. A conjunction of bits that is 1 has every bit 1, and a reduction by `and` that is 1 met
  only ones; the two signed comparisons then bound the word's signed value.
-/
import proofs.«406263_j71914932404373_2_alg».proof.Pre_finite_inputs
import Idealize.ShloMosaic.Lib.ReduceAll
import Idealize.ShloMosaic.Lib.ValueIdx

noncomputable section

namespace Cert.EdgeScore.PreDecode

open Idealize.ShloMosaic Cert.Pre_finite_inputs

variable {F : FTy → Type} [FloatOps F] [Cert.Pre_finite_inputs.Facts]

/-- A rank-0 array has one index. -/
instance : Subsingleton S_.Idx := ⟨fun _ _ => funext fun d => d.elim0⟩

/-- Under the precondition every edge-index word, read as a signed integer, lies in `[0, 50000)`. -/
theorem index_in_range (a0 : FVec F S50000x64 .f32) (a1 : IVec S2x1600000 32) (a2 : FVec F S1600000x32 .f32)
    (a3 : FVec F S160x128 .f32) (a4 : FVec F S128 .f32) (a5 : FVec F S128x1 .f32) (a6 : FVec F S1 .f32)
    (h : Cert.Pre_finite_inputs.fn (F := F) a0 a1 a2 a3 a4 a5 a6 = fun _ => 1#1) (i : S2x1600000.Idx) :
    0 ≤ (a1 i).toInt ∧ (a1 i).toInt < 50000 := by
  have e := congrFun h ValueIdx.ix0
  unfold Cert.Pre_finite_inputs.fn Cert.Pre_finite_inputs.fn_part1 Cert.Pre_finite_inputs.fn_part2 at e
  dsimp only at e
  have e2 := (IntOp.andi_eq_one.1 e).2
  have e3 := Host.reduce_andi_all _ _ _ _ _ e2 i
  obtain ⟨h0, h1⟩ := IntOp.andi_eq_one.1 e3
  have g0 : IntOp.cmpi .sge (a1 i) 0#32 = 1#1 := h0
  have g1 : IntOp.cmpi .slt (a1 i) 50000#32 = 1#1 := h1
  have z0 : (0#32 : BitVec 32).toInt = 0 := by decide
  have z1 : (50000#32 : BitVec 32).toInt = 50000 := by decide
  have b0 := IntOp.cmpi_sge.1 g0
  have b1 := IntOp.cmpi_slt.1 g1
  rw [z0] at b0
  rw [z1] at b1
  exact ⟨b0, b1⟩

end Cert.EdgeScore.PreDecode

end
-- ==== Proof.Bridge.lean ====
/-
  The two programs compute one function.

  Under the precondition every edge-index word is a node number, so the kernel program's two `take`s are the plain
  gathers the reference performs, at the same start-index columns; the kernel program's weight bands, bias rows and
  weight row are the reference's first weight matrix, biases and weight column read at the matching entries. With
  that, the kernel's column of scores (KernelCover.lean), turned into a vector, is the reference's result
  (RefValue.lean) entry by entry.
-/
import proofs.«406263_j71914932404373_2_alg».proof.Proof.KernelCover
import proofs.«406263_j71914932404373_2_alg».proof.Proof.HostPrefix
import proofs.«406263_j71914932404373_2_alg».proof.Proof.RefValue
import proofs.«406263_j71914932404373_2_alg».proof.Proof.PreDecode
import proofs.«406263_j71914932404373_2_alg».proof.Proof.Gen.Pre_finite_inputs
import proofs.«406263_j71914932404373_2_alg».proof.Defs
import Idealize.ShloMosaic.Lib.ValueLayout

set_option maxRecDepth 16384

noncomputable section

namespace Cert.EdgeScore.Bridge

open Idealize.ShloMosaic Idealize.ShloMosaic.TcCoe Idealize.ShloMosaic.ValueIdx Idealize.SL.Sem

/-! ## The kernel program's re-laid operands against the reference's arrays -/

section Layout
open Cert.KernelIdeal

/-- Rows 0–63 of the first weight matrix, as the slice the kernel program takes. -/
theorem slice_band0 (W : Vec Ideal S160x128 .f32) (h : S160x128.Slices ![0, 0] S64x128) :
    extractStridedSlice S64x128 ![0, 0] W h = band 0 (by omega) W :=
  funext fun i => congrArg W (funext fun a => Fin.ext (by
    match a with
    | ⟨0, _⟩ => rfl
    | ⟨1, _⟩ => exact Nat.zero_add _))

/-- Rows 64–127. -/
theorem slice_band64 (W : Vec Ideal S160x128 .f32) (h : S160x128.Slices ![64, 0] S64x128) :
    extractStridedSlice S64x128 ![64, 0] W h = band 64 (by omega) W :=
  funext fun i => congrArg W (funext fun a => Fin.ext (by
    match a with
    | ⟨0, _⟩ => rfl
    | ⟨1, _⟩ => exact Nat.zero_add _))

/-- Rows 128–159. -/
theorem slice_band128 (W : Vec Ideal S160x128 .f32) (h : S160x128.Slices ![128, 0] S32x128) :
    extractStridedSlice S32x128 ![128, 0] W h = band 128 (by omega) W :=
  funext fun i => congrArg W (funext fun a => Fin.ext (by
    match a with
    | ⟨0, _⟩ => rfl
    | ⟨1, _⟩ => exact Nat.zero_add _))

/-- The first bias re-laid as a row reads the bias at the column. -/
theorem cast_rowOfVec (b : Vec Ideal S128 .f32) (h : S128.ShapeCasts S1x128) : shapeCast S1x128 b h = rowOfVec b :=
  funext fun i => shapeCast_apply b h i _ (by
    rw [Shape.rowMajor_val_two, Shape.rowMajor_val_one]
    have h0 : (i 0).val < 1 := (i 0).isLt
    show (i 1).val = (i 0).val * 128 + (i 1).val
    omega)

/-- The second weight column re-laid as a row reads the column at the row. -/
theorem cast_rowOfCol (W : Vec Ideal S128x1 .f32) (h : S128x1.ShapeCasts S1x128) : shapeCast S1x128 W h = rowOfCol W :=
  funext fun i => shapeCast_apply W h i _ (by
    rw [Shape.rowMajor_val_two, Shape.rowMajor_val_two]
    have h0 : (i 0).val < 1 := (i 0).isLt
    show (i 1).val * 1 + 0 = (i 0).val * 128 + (i 1).val
    omega)

/-- The second bias re-laid as a 1×1 array reads its one entry. -/
theorem cast_oneOfVec (b : Vec Ideal S1 .f32) (h : S1.ShapeCasts S1x1) : shapeCast S1x1 b h = oneOfVec b :=
  funext fun i => shapeCast_apply b h i _ (by
    rw [Shape.rowMajor_val_two, Shape.rowMajor_val_one]
    have h0 : (i 0).val < 1 := (i 0).isLt
    have h1 : (i 1).val < 1 := (i 1).isLt
    show 0 = (i 0).val * 1 + (i 1).val
    omega)

end Layout

/-! ## The gathers of the two programs are one -/

/-- The kernel program's gather at the wrapped source words is the reference's first gather. -/
theorem gather_src (z : Vec Ideal Cert.KernelIdeal.S50000x64 .f32) (a1 : IVec Cert.KernelIdeal.S2x1600000 32) :
    Host.rowsOf (F := Ideal) z (Host.wrapCol (Host.srcWords a1))
      = (Cert.ReferenceIdeal.Read.val_main_v10 (F := Ideal) z a1 : FVec Ideal Cert.KernelIdeal.S1600000x64 .f32) := by
  unfold Host.rowsOf Host.wrapCol Host.srcWords Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v1
    Cert.ReferenceIdeal.Read.val_main_v0 Cert.ReferenceIdeal.Read.val_main_c Cert.ReferenceIdeal.Read.val_main_c_0
  rfl

/-- The kernel program's gather at the wrapped destination words is the reference's second gather. -/
theorem gather_dst (z : Vec Ideal Cert.KernelIdeal.S50000x64 .f32) (a1 : IVec Cert.KernelIdeal.S2x1600000 32) :
    Host.rowsOf (F := Ideal) z (Host.wrapCol (Host.dstWords a1))
      = (Cert.ReferenceIdeal.Read.val_main_v17 (F := Ideal) z a1 : FVec Ideal Cert.KernelIdeal.S1600000x64 .f32) := by
  unfold Host.rowsOf Host.wrapCol Host.dstWords Cert.ReferenceIdeal.Read.val_main_v17 Cert.ReferenceIdeal.Read.val_main_v16
    Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v3
    Cert.ReferenceIdeal.Read.val_main_v2 Cert.ReferenceIdeal.Read.val_main_c_1 Cert.ReferenceIdeal.Read.val_main_c_2
  rfl

/-! ## The kernel's result over the argument arrays -/

section Result
open Cert.KernelIdeal Cert.KernelIdeal.Gen

variable (m : (ℓ : Loc nD τ sig) → Buf (Elt Ideal) ℓ)

/-- Under the precondition the kernel's column of scores, at row `p`, is the score over the reference's two gathers,
    the edge attributes, and the reference's weights and biases read as the kernel program lays them out. -/
theorem G_at (hpre : Cert.Pre_KernelIdeal m) (c : Dev nD) (p : Fin 1600000) :
    Kernel.G m c (ix2 p (0 : Fin 1))
      = score (R := 1600000)
          (Cert.ReferenceIdeal.Read.val_main_v10 (F := Ideal) (m ((c : Thread nD τ).loc main_arg0)) (m ((c : Thread nD τ).loc main_arg1)))
          (Cert.ReferenceIdeal.Read.val_main_v17 (F := Ideal) (m ((c : Thread nD τ).loc main_arg0)) (m ((c : Thread nD τ).loc main_arg1)))
          (m ((c : Thread nD τ).loc main_arg2))
          (band 0 (by omega) (m ((c : Thread nD τ).loc main_arg3))) (band 64 (by omega) (m ((c : Thread nD τ).loc main_arg3)))
          (band 128 (by omega) (m ((c : Thread nD τ).loc main_arg3)))
          (rowOfVec (m ((c : Thread nD τ).loc main_arg4))) (rowOfCol (m ((c : Thread nD τ).loc main_arg5)))
          (oneOfVec (m ((c : Thread nD τ).loc main_arg6))) p := by
  have hr : ∀ i, 0 ≤ ((m ((c : Thread nD τ).loc main_arg1) : IVec S2x1600000 32) i).toInt
      ∧ ((m ((c : Thread nD τ).loc main_arg1) : IVec S2x1600000 32) i).toInt < 50000 :=
    fun i => PreDecode.index_in_range _ _ _ _ _ _ _ (hpre c) i
  have hs : Kernel.As m c = Cert.ReferenceIdeal.Read.val_main_v10 (F := Ideal) (m ((c : Thread nD τ).loc main_arg0)) (m ((c : Thread nD τ).loc main_arg1)) := by
    show (V m c main_v4 : S1600000x64.Idx → EReal) = _
    rw [Host.V_src m c, Host.takeFill_of_range _ _ (fun i => by obtain ⟨k, hk⟩ := Host.srcWords_mem (m ((c : Thread nD τ).loc main_arg1)) i; rw [hk]; exact hr k)]
    exact gather_src _ _
  have hd : Kernel.Ad m c = Cert.ReferenceIdeal.Read.val_main_v17 (F := Ideal) (m ((c : Thread nD τ).loc main_arg0)) (m ((c : Thread nD τ).loc main_arg1)) := by
    show (V m c main_v5 : S1600000x64.Idx → EReal) = _
    rw [Host.V_dst m c, Host.takeFill_of_range _ _ (fun i => by obtain ⟨k, hk⟩ := Host.dstWords_mem (m ((c : Thread nD τ).loc main_arg1)) i; rw [hk]; exact hr k)]
    exact gather_dst _ _
  have he : Kernel.Ae m c = m ((c : Thread nD τ).loc main_arg2) := V_main_arg2 m c
  have h3 : Kernel.Ws m c = band 0 (by omega) (m ((c : Thread nD τ).loc main_arg3)) := (Host.V_w1s m c).trans (slice_band0 _ _)
  have h4 : Kernel.Wd m c = band 64 (by omega) (m ((c : Thread nD τ).loc main_arg3)) := (Host.V_w1d m c).trans (slice_band64 _ _)
  have h5 : Kernel.Wa m c = band 128 (by omega) (m ((c : Thread nD τ).loc main_arg3)) := (Host.V_w1a m c).trans (slice_band128 _ _)
  have h6 : Kernel.B1 m c = rowOfVec (m ((c : Thread nD τ).loc main_arg4)) := (Host.V_b1 m c).trans (cast_rowOfVec _ _)
  have h7 : Kernel.W2 m c = rowOfCol (m ((c : Thread nD τ).loc main_arg5)) := (Host.V_w2 m c).trans (cast_rowOfCol _ _)
  have h8 : Kernel.B2 m c = oneOfVec (m ((c : Thread nD τ).loc main_arg6)) := (Host.V_b2 m c).trans (cast_oneOfVec _ _)
  show score (R := 1600000) (Kernel.As m c) (Kernel.Ad m c) (Kernel.Ae m c) (Kernel.Ws m c) (Kernel.Wd m c) (Kernel.Wa m c)
    (Kernel.B1 m c) (Kernel.W2 m c) (Kernel.B2 m c) p = _
  rw [hs, hd, he, h3, h4, h5, h6, h7, h8]

/-- Under the precondition the reference's result over the kernel program's argument arrays is the kernel's column of
    scores turned into a vector. -/
theorem result_eq (hpre : Cert.Pre_KernelIdeal m) (c : Dev nD) :
    Cert.ReferenceIdeal.Read.val_main_v28 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      = shapeCast S1600000 (Kernel.G m c) shapeCasts_S1600000x1_S1600000 := by
  funext i
  have hi : (i 0).val < 1600000 := (i 0).isLt
  have ei : i = ix1 (⟨(i 0).val, hi⟩ : Fin 1600000) := eq_ix1 i
  rw [ei]
  refine (Ref.ref_at _ _ _ _ _ _ _ ⟨(i 0).val, hi⟩).trans ?_
  refine (G_at m hpre c ⟨(i 0).val, hi⟩).symm.trans ?_
  refine (shapeCast_apply (Kernel.G m c) shapeCasts_S1600000x1_S1600000 _ _ ?_).symm
  rw [Shape.rowMajor_val_two, Shape.rowMajor_val_one]
  show (i 0).val * 1 + 0 = (i 0).val
  omega

end Result

end Cert.EdgeScore.Bridge

end
-- ==== Proof.lean ====
/-
  The edge decoder: a kernel that scores 1600000 edges of a graph with a two-layer perceptron, against its reference.

  Both programs gather, for every edge, the 64 features of its source node and of its destination node, join them
  with the edge's 32 attributes, apply a 160 → 128 linear layer with bias and a rectifier, and a 128 → 1 linear layer
  with bias. The kernel program takes the node rows with a bounds-checked `take` (a fill value outside
  `[0, 50000)`), keeps the three parts of the 160 features apart and multiplies each by its own band of rows of the
  first weight matrix, adding the three products, and forms the second layer as a lane sum of a row product, block
  of 16000 edges by block; the reference indexes the node array directly (indices clamped), multiplies the joined
  features by the whole matrix and uses a matrix product for the second layer.

  Over the extended reals, where a change of float format is the identity, the two agree wherever every edge-index
  word is a node number — the precondition's added conjunct, without which the `take`'s fill value and the clamp
  differ — by associativity and commutativity of addition alone: a sum over the 160 joined features is the sum of
  the sums over its three parts. No finiteness of the float inputs is used.

  The frames of the two kernel programs are the generated ones; the reference's is its generated run. The kernel
  program's result is read off the generated frame run (KernelCover.lean), the reference's off its generated
  read-at-an-index lemmas (RefValue.lean), and Bridge.lean joins the two.
-/
import proofs.«406263_j71914932404373_2_alg».proof.Defs
import proofs.«406263_j71914932404373_2_alg».proof.Proof.Gen.Kernel
import proofs.«406263_j71914932404373_2_alg».proof.Proof.Gen.Kernel.Frame
import proofs.«406263_j71914932404373_2_alg».proof.Proof.Gen.KernelIdeal
import proofs.«406263_j71914932404373_2_alg».proof.Proof.Gen.KernelIdeal.Frame
import proofs.«406263_j71914932404373_2_alg».proof.Proof.Gen.ReferenceIdeal
import proofs.«406263_j71914932404373_2_alg».proof.Proof.Gen.Pre_finite_inputs
import proofs.«406263_j71914932404373_2_alg».proof.Proof.Gen.ReferenceIdeal.Run
import proofs.«406263_j71914932404373_2_alg».proof.Proof.Gen.ReferenceIdeal.Read
import proofs.«406263_j71914932404373_2_alg».proof.Proof.KernelCover
import proofs.«406263_j71914932404373_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the vector of edge scores. -/
theorem algebraic : Cert.algebraic_KernelIdeal_ReferenceIdeal := by
  intro m ρ m' ρ' hpre hagree
  refine ⟨fun c => shapeCast Cert.KernelIdeal.S1600000 (Cert.EdgeScore.Kernel.G m c) Cert.KernelIdeal.Facts₀.shapeCasts_S1600000x1_S1600000,
    Cert.EdgeScore.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq _ _ _ _ _ _ _).trans ?_
  rw [(hagree c).1, (hagree c).2.1, (hagree c).2.2.1, (hagree c).2.2.2.1, (hagree c).2.2.2.2.1, (hagree c).2.2.2.2.2.1,
    (hagree c).2.2.2.2.2.2]
  exact Cert.EdgeScore.Bridge.result_eq m hpre c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
